-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16x1024 .f32) (main_arg5 : FVec F S1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x16 .f32) (main_arg2 : FVec F S16 .f32) (main_arg3 : FVec F S16 .f32) (main_arg4 : FVec F S16x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S32768x1024 : Shape := ⟨2, ![32768, 1024]⟩
abbrev S2048x1024 : Shape := ⟨2, ![2048, 1024]⟩
abbrev S2048x16 : Shape := ⟨2, ![2048, 16]⟩
abbrev S1x16 : Shape := ⟨2, ![1, 16]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x16, .f32⟩
  | .local _ .vmem, ⟨3, _⟩ => ⟨S16, .f32⟩
  | .local _ .vmem, ⟨4, _⟩ => ⟨S16, .f32⟩
  | .local _ .vmem, ⟨5, _⟩ => ⟨S16x1024, .f32⟩
  | .local _ .vmem, ⟨6, _⟩ => ⟨S1024, .f32⟩
  | .local _ .vmem, ⟨7, _⟩ => ⟨S2048x1024, .f32⟩
  | .local _ .vmem, ⟨8, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  inb_S16x1024_S16x1024_0_0 : ∀ a, (![0, 0] : Fin 2 → Nat) a + S16x1024.size a ≤ S16x1024.size a
  h_S16x1024 : 0 < S16x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S32768x1024_S8x4096x1024 : S32768x1024.ShapeCasts S8x4096x1024
  dot_S2048x1024_S1024x16_S2048x16_1_0_0_1_n_n_wf : DotDims.WF S2048x1024 S1024x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S32768x1024.size a
  hwx0_6 : ∀ i : grid0.Coords, EltTy.bits .f32 = 32 ∨ (Rect.block (s := S32768x1024) S2048x1024.size (cc0_transform_6 i) (hinb0_6 i)).WholeWords (EltTy.packing .f32)

variable [Facts₀]

def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S8x4096x16 : Shape := ⟨3, ![8, 4096, 16]⟩
abbrev S1x1x16 : Shape := ⟨3, ![1, 1, 16]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S8x4096x16, .f32⟩
  | .hbm, ⟨7, _⟩ => ⟨S1x1x16, .f32⟩
  | .hbm, ⟨8, _⟩ => ⟨S8x4096x16, .f32⟩
  | .hbm, ⟨9, _⟩ => ⟨S8x4096x16, .f32⟩
  | .hbm, ⟨10, _⟩ => ⟨S_, .f32⟩
  | .hbm, ⟨11, _⟩ => ⟨S8x4096x16, .f32⟩
  | .hbm, ⟨12, _⟩ => ⟨S8x4096x16, .f32⟩
  | .hbm, ⟨13, _⟩ => ⟨S1x1x16, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S8x4096x16_0_1_2 : S1x1x16.BroadcastsInDim S8x4096x16 (![0, 1, 2] : Fin 3 → Fin S8x4096x16.rank)
  bcast_S_S8x4096x16 : S_.BroadcastsInDim S8x4096x16 (![] : Fin 0 → Fin S8x4096x16.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x16_S8x4096x16_2_0_01_1_n_n_wf : DotDims.WF S8x4096x1024 S1024x16 S8x4096x16 [2] [0] [0, 1] [1] [] []
  dot_S8x4096x16_S16x1024_S8x4096x1024_2_0_01_1_n_n_wf : DotDims.WF S8x4096x16 S16x1024 S8x4096x1024 [2] [0] [0, 1] [1] [] []

variable [Facts₀]

def dot_S8x4096x1024_S1024x16_S8x4096x16_2_0_01_1_n_n : DotDims S8x4096x1024 S1024x16 S8x4096x16 where
  lhsContracting := [2]
  rhsContracting := [0]
  lhsNonContracting := [0, 1]
  rhsNonContracting := [1]
  lhsBatch := []
  rhsBatch := []
  wf := dot_S8x4096x1024_S1024x16_S8x4096x16_2_0_01_1_n_n_wf
def dot_S8x4096x16_S16x1024_S8x4096x1024_2_0_01_1_n_n : DotDims S8x4096x16 S16x1024 S8x4096x1024 where
  lhsContracting := [2]
  rhsContracting := [0]
  lhsNonContracting := [0, 1]
  rhsNonContracting := [1]
  lhsBatch := []
  rhsBatch := []
  wf := dot_S8x4096x16_S16x1024_S8x4096x1024_2_0_01_1_n_n_wf

class Facts : Prop extends Facts₀ where

variable [Facts]
-- ==== Proof.Spec.lean ====
/-
  The two-layer network of this certificate, entry by entry on the extended reals.

  A row of 1024 inputs `xr` is sent through an affine map into 16 hidden entries, the rectifier `max · 0`, a shift by the
  16 entries of `θ`, the cosine, and a second affine map back to 1024 outputs:

      hidden q = cos (max (∑ k, xr k * W1 (k, q) + b1 q) 0 + θ q)
      outRow d = (∑ q, hidden q * W2 (q, d)) + b2 d.

  The layer acts on each row by itself. So it does not matter whether the rows are indexed by a pair (batch, position) or
  by the single number `batch * 4096 + position`: applying the layer to the array with its two leading axes flattened and
  unflattening the result is the layer on the array itself (`ffn_flatten`). Sums are over `Fin`, hence in no order, and no
  law used here needs a finite entry.
-/
import Idealize.ShloMosaic.PureOps.Ideal
import Idealize.ShloMosaic.Lib.ValueIdx
import Idealize.ShloMosaic.Lib.Pipeline.Value

noncomputable section

open scoped BigOperators

namespace Cert.Ffn

open Idealize.ShloMosaic Idealize.ShloMosaic.ValueIdx

/-- The shapes of the arrays, by their extents. -/
abbrev Sx : Shape := ⟨3, ![8, 4096, 1024]⟩
abbrev Sflat : Shape := ⟨2, ![32768, 1024]⟩
abbrev Sw1 : Shape := ⟨2, ![1024, 16]⟩
abbrev Sq : Shape := ⟨1, ![16]⟩
abbrev Sw2 : Shape := ⟨2, ![16, 1024]⟩
abbrev Sd : Shape := ⟨1, ![1024]⟩

/-- Hidden entry `q` for one row of inputs: the cosine of the rectified first affine map shifted by `θ q`. The zero the
    rectifier compares with is the value of the f32 zero word. -/
def hidden (xr : Fin 1024 → EReal) (W1 : Sw1.Idx → EReal) (b1 θ : Sq.Idx → EReal) (q : Fin 16) : EReal :=
  Ideal.cos (max ((∑ k : Fin 1024, xr k * W1 (ix2 k q)) + b1 (ix1 q)) (Ideal.ofBits .f32 0x00000000#32) + θ (ix1 q))

/-- Output `d` for one row of inputs: the second affine map of the sixteen hidden entries. -/
def outRow (xr : Fin 1024 → EReal) (W1 : Sw1.Idx → EReal) (b1 θ : Sq.Idx → EReal) (W2 : Sw2.Idx → EReal)
    (b2 : Sd.Idx → EReal) (d : Fin 1024) : EReal :=
  (∑ q : Fin 16, hidden xr W1 b1 θ q * W2 (ix2 q d)) + b2 (ix1 d)

/-- The layer on a [8, 4096, 1024] array: entry (b, s, d) is output `d` of row (b, s). -/
def ffn3 (x : Sx.Idx → EReal) (W1 : Sw1.Idx → EReal) (b1 θ : Sq.Idx → EReal) (W2 : Sw2.Idx → EReal)
    (b2 : Sd.Idx → EReal) : Sx.Idx → EReal :=
  fun i => outRow (fun k => x (ix3 (i 0) (i 1) k)) W1 b1 θ W2 b2 (i 2)

/-- The layer on a [32768, 1024] array: entry (r, d) is output `d` of row r. -/
def ffn2 (x : Sflat.Idx → EReal) (W1 : Sw1.Idx → EReal) (b1 θ : Sq.Idx → EReal) (W2 : Sw2.Idx → EReal)
    (b2 : Sd.Idx → EReal) : Sflat.Idx → EReal :=
  fun j => outRow (fun k => x (ix2 (j 0) k)) W1 b1 θ W2 b2 (j 1)

/-- Row (b, s) of the array is row `b * 4096 + s` of its flattening, and the layer reads one row at a time: flatten,
    apply the layer, unflatten is the layer. -/
theorem ffn_flatten (x : Sx.Idx → EReal) (W1 : Sw1.Idx → EReal) (b1 θ : Sq.Idx → EReal) (W2 : Sw2.Idx → EReal)
    (b2 : Sd.Idx → EReal) (hf : Sx.ShapeCasts Sflat) (hu : Sflat.ShapeCasts Sx) :
    shapeCast Sx (ffn2 (shapeCast Sflat x hf) W1 b1 θ W2 b2) hu = ffn3 x W1 b1 θ W2 b2 := by
  funext i
  have h0 : (i 0).val < 8 := (i 0).isLt
  have h1 : (i 1).val < 4096 := (i 1).isLt
  have hr : (i 0).val * 4096 + (i 1).val < 32768 := by omega
  rw [shapeCast_apply _ hu i (ix2 (n0 := 32768) (n1 := 1024) ⟨(i 0).val * 4096 + (i 1).val, hr⟩ (i 2)) (by
    rw [Shape.rowMajor_val_two, Shape.rowMajor_val_three]; rfl)]
  unfold ffn2 ffn3
  refine congrArg (fun xr => outRow xr W1 b1 θ W2 b2 (i 2)) (funext fun k => ?_)
  exact shapeCast_apply x hf _ (ix3 (i 0) (i 1) k) (by
    rw [Shape.rowMajor_val_two, Shape.rowMajor_val_three]; rfl)

end Cert.Ffn

end
-- ==== Proof.RefSide.lean ====
/-
  The reference computes the layer. Its last stage, read at an entry (b, s, d), is the bias `b2 d` added to the sum over the
  sixteen hidden entries of `cos (max (∑ k, x (b, s, k) * W1 (k, q) + b1 q) 0 + θ q) * W2 (q, d)`: the two dot products as sums over
  their one contracted coordinate, each bias repeated along the two leading axes, the rectifier the maximum with a
  repeated zero constant, and the host's cosine the cosine of the extended reals.
-/
import proofs.«137017_j65481071409583_1_alg».proof.Proof.Gen.ReferenceIdeal.Run
import proofs.«137017_j65481071409583_1_alg».proof.Proof.Gen.ReferenceIdeal.Read
import proofs.«137017_j65481071409583_1_alg».proof.Proof.Spec

noncomputable section

open scoped BigOperators

namespace Cert.Ffn.Ref

open Cert.ReferenceIdeal Cert.ReferenceIdeal.Read Idealize.ShloMosaic Idealize.ShloMosaic.ValueIdx Cert.Ffn

/-! The generated composed index functions, by coordinates: entry (b, s, d) of the result reads row (b, s) of `x`, column
    `q` of `W1`, entry `q` of `b1` and `θ`, row `q` and column `d` of `W2`, and entry `d` of `b2`. -/

theorem x_idx (i : S8x4096x1024.Idx) (q : Fin 16) (k : Fin 1024) :
    lidx_main_v0 (lidx_main_v9 i q) k = ix3 (i 0) (i 1) k := by
  funext a; match a with | ⟨0, _⟩ => rfl | ⟨1, _⟩ => rfl | ⟨2, _⟩ => rfl
theorem w1_idx (i : S8x4096x1024.Idx) (q : Fin 16) (k : Fin 1024) :
    ridx_main_v0 (lidx_main_v9 i q) k = ix2 k q := by
  funext a; match a with | ⟨0, _⟩ => rfl | ⟨1, _⟩ => rfl
theorem b1_idx (i : S8x4096x1024.Idx) (q : Fin 16) : idx_main_v1 (idx_main_v2 (lidx_main_v9 i q)) = ix1 q := by
  funext a; match a with | ⟨0, _⟩ => rfl
theorem θ_idx (i : S8x4096x1024.Idx) (q : Fin 16) : idx_main_v5 (idx_main_v6 (lidx_main_v9 i q)) = ix1 q := by
  funext a; match a with | ⟨0, _⟩ => rfl
theorem w2_idx (i : S8x4096x1024.Idx) (q : Fin 16) : ridx_main_v9 i q = ix2 q (i 2) := by
  funext a; match a with | ⟨0, _⟩ => rfl | ⟨1, _⟩ => rfl
theorem b2_idx (i : S8x4096x1024.Idx) : idx_main_v10 (idx_main_v11 i) = ix1 (i 2) := by
  funext a; match a with | ⟨0, _⟩ => rfl

/-- The reference's result array is the layer of its six argument arrays. -/
theorem reference_eq (x : (⟨S8x4096x1024, .f32⟩ : BufTy).Contents (Elt Ideal)) (W1 : (⟨S1024x16, .f32⟩ : BufTy).Contents (Elt Ideal))
    (b1 θ : (⟨S16, .f32⟩ : BufTy).Contents (Elt Ideal)) (W2 : (⟨S16x1024, .f32⟩ : BufTy).Contents (Elt Ideal))
    (b2 : (⟨S1024, .f32⟩ : BufTy).Contents (Elt Ideal)) :
    val_main_v12 (F := Ideal) x W1 b1 θ W2 b2 = ffn3 x W1 b1 θ W2 b2 := by
  funext i
  rw [val_main_v12_apply, val_main_v9_apply, val_main_v11_apply, val_main_v10_apply]
  simp only [val_main_v8_apply, val_main_v7_apply, val_main_v6_apply, val_main_v5_apply, val_main_v4_apply,
    val_main_call0_v0_apply, val_main_call0_cst_apply, val_main_v3_apply, val_main_v2_apply, val_main_v1_apply,
    val_main_v0_apply]
  simp only [x_idx, w1_idx, b1_idx, θ_idx, w2_idx, b2_idx]
  rfl

end Cert.Ffn.Ref

end
-- ==== Proof.Payload.lean ====
/-
  What the kernel body computes for one block of 2048 rows, entry by entry on the extended reals. The body takes the
  block `x0` of inputs and the five parameter arrays whole, and stores, at row `p` and column `d` of the block,

      (∑ q, cos (max (∑ k, x0 (p, k) * w1 (k, q) + b1 q) 0 + θ q) * w2 (q, d)) + b2 d,

  the layer's output `d` for the block's row `p`. The two products are block products into a zero accumulator, each the
  sum over its one contracted coordinate; a change of float format is the identity; a bias vector viewed as a row and
  repeated down the block reads its entry of the column.
-/
import proofs.«137017_j65481071409583_1_alg».proof.Proof.Gen.KernelIdeal.Skeleton
import proofs.«137017_j65481071409583_1_alg».proof.Proof.Spec
import Idealize.ShloMosaic.PureOps.Ideal.Laws
import Idealize.ShloMosaic.Lib.ValueIdx
import Idealize.ShloMosaic.Lib.Pipeline.Value

noncomputable section

open scoped BigOperators

namespace Cert.Ffn.Kernel

open Cert.KernelIdeal Cert.KernelIdeal.Gen Idealize.ShloMosaic Idealize.ShloMosaic.ValueIdx Cert.Ffn

/-! ## The first product: [2048, 1024] by [1024, 16] -/

theorem lhs_first_0 (i : S2048x16.Idx) (q : dot_S2048x1024_S1024x16_S2048x16_1_0_0_1_n_n.contr.Idx) :
    (dot_S2048x1024_S1024x16_S2048x16_1_0_0_1_n_n.lhsIdx i q 0).val = (i 0).val := by
  unfold DotDims.lhsIdx
  rw [dif_neg (show ¬(0 : Fin S2048x1024.rank) ∈ dot_S2048x1024_S1024x16_S2048x16_1_0_0_1_n_n.lhsBatch by decide), dif_pos (show (0 : Fin S2048x1024.rank) ∈ dot_S2048x1024_S1024x16_S2048x16_1_0_0_1_n_n.lhsNonContracting by decide)]
  rfl
theorem lhs_first_1 (i : S2048x16.Idx) (q : dot_S2048x1024_S1024x16_S2048x16_1_0_0_1_n_n.contr.Idx) :
    (dot_S2048x1024_S1024x16_S2048x16_1_0_0_1_n_n.lhsIdx i q 1).val = (q ⟨0, by decide⟩).val :=
  dot_S2048x1024_S1024x16_S2048x16_1_0_0_1_n_n.lhsIdx_val_of_single rfl i q
theorem rhs_first_0 (i : S2048x16.Idx) (q : dot_S2048x1024_S1024x16_S2048x16_1_0_0_1_n_n.contr.Idx) :
    (dot_S2048x1024_S1024x16_S2048x16_1_0_0_1_n_n.rhsIdx i q 0).val = (q ⟨0, by decide⟩).val :=
  dot_S2048x1024_S1024x16_S2048x16_1_0_0_1_n_n.rhsIdx_val_of_single rfl i q
theorem rhs_first_1 (i : S2048x16.Idx) (q : dot_S2048x1024_S1024x16_S2048x16_1_0_0_1_n_n.contr.Idx) :
    (dot_S2048x1024_S1024x16_S2048x16_1_0_0_1_n_n.rhsIdx i q 1).val = (i 1).val := by
  unfold DotDims.rhsIdx
  rw [dif_neg (show ¬(1 : Fin S1024x16.rank) ∈ dot_S2048x1024_S1024x16_S2048x16_1_0_0_1_n_n.rhsBatch by decide), dif_pos (show (1 : Fin S1024x16.rank) ∈ dot_S2048x1024_S1024x16_S2048x16_1_0_0_1_n_n.rhsNonContracting by decide)]
  rfl

/-- Entry (p, q) of the first block product into zero: the sum over the 1024 columns of row `p` against column `q`. -/
theorem first_apply {φ₁ φ₂ : FTy} (A : FVec Ideal S2048x1024 φ₁) (B : FVec Ideal S1024x16 φ₂) (p : Fin 2048) (q : Fin 16) :
    matmul dot_S2048x1024_S1024x16_S2048x16_1_0_0_1_n_n none A B (constant S2048x16 .f32 0x00000000#32) (ix2 p q)
      = ∑ k : Fin 1024, A (ix2 p k) * B (ix2 k q) := by
  simp only [matmul]
  rw [Ideal.matmul_constant_zero_apply, ← Equiv.sum_comp (contrEquiv1 dot_S2048x1024_S1024x16_S2048x16_1_0_0_1_n_n 1024 rfl rfl).symm]
  refine Finset.sum_congr rfl fun k _ => ?_
  have hk := contrEquiv1_symm_val dot_S2048x1024_S1024x16_S2048x16_1_0_0_1_n_n 1024 rfl rfl k
  have el : dot_S2048x1024_S1024x16_S2048x16_1_0_0_1_n_n.lhsIdx (ix2 p q) ((contrEquiv1 dot_S2048x1024_S1024x16_S2048x16_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S2048x1024_S1024x16_S2048x16_1_0_0_1_n_n.rhsIdx (ix2 p q) ((contrEquiv1 dot_S2048x1024_S1024x16_S2048x16_1_0_0_1_n_n 1024 rfl rfl).symm k) = ix2 k q := funext fun a => Fin.ext (by
    match a with
    | ⟨0, _⟩ => exact (rhs_first_0 _ _).trans hk
    | ⟨1, _⟩ => exact rhs_first_1 _ _)
  rw [el, er]

/-! ## The second product: [2048, 16] by [16, 1024] -/

theorem lhs_second_0 (i : S2048x1024.Idx) (q : dot_S2048x16_S16x1024_S2048x1024_1_0_0_1_n_n.contr.Idx) :
    (dot_S2048x16_S16x1024_S2048x1024_1_0_0_1_n_n.lhsIdx i q 0).val = (i 0).val := by
  unfold DotDims.lhsIdx
  rw [dif_neg (show ¬(0 : Fin S2048x16.rank) ∈ dot_S2048x16_S16x1024_S2048x1024_1_0_0_1_n_n.lhsBatch by decide), dif_pos (show (0 : Fin S2048x16.rank) ∈ dot_S2048x16_S16x1024_S2048x1024_1_0_0_1_n_n.lhsNonContracting by decide)]
  rfl
theorem lhs_second_1 (i : S2048x1024.Idx) (q : dot_S2048x16_S16x1024_S2048x1024_1_0_0_1_n_n.contr.Idx) :
    (dot_S2048x16_S16x1024_S2048x1024_1_0_0_1_n_n.lhsIdx i q 1).val = (q ⟨0, by decide⟩).val :=
  dot_S2048x16_S16x1024_S2048x1024_1_0_0_1_n_n.lhsIdx_val_of_single rfl i q
theorem rhs_second_0 (i : S2048x1024.Idx) (q : dot_S2048x16_S16x1024_S2048x1024_1_0_0_1_n_n.contr.Idx) :
    (dot_S2048x16_S16x1024_S2048x1024_1_0_0_1_n_n.rhsIdx i q 0).val = (q ⟨0, by decide⟩).val :=
  dot_S2048x16_S16x1024_S2048x1024_1_0_0_1_n_n.rhsIdx_val_of_single rfl i q
theorem rhs_second_1 (i : S2048x1024.Idx) (q : dot_S2048x16_S16x1024_S2048x1024_1_0_0_1_n_n.contr.Idx) :
    (dot_S2048x16_S16x1024_S2048x1024_1_0_0_1_n_n.rhsIdx i q 1).val = (i 1).val := by
  unfold DotDims.rhsIdx
  rw [dif_neg (show ¬(1 : Fin S16x1024.rank) ∈ dot_S2048x16_S16x1024_S2048x1024_1_0_0_1_n_n.rhsBatch by decide), dif_pos (show (1 : Fin S16x1024.rank) ∈ dot_S2048x16_S16x1024_S2048x1024_1_0_0_1_n_n.rhsNonContracting by decide)]
  rfl

/-- Entry (p, d) of the second block product into zero: the sum over the 16 hidden entries of row `p` against column `d`. -/
theorem second_apply {φ₁ φ₂ : FTy} (A : FVec Ideal S2048x16 φ₁) (B : FVec Ideal S16x1024 φ₂) (p : Fin 2048) (d : Fin 1024) :
    matmul dot_S2048x16_S16x1024_S2048x1024_1_0_0_1_n_n none A B (constant S2048x1024 .f32 0x00000000#32) (ix2 p d)
      = ∑ q : Fin 16, A (ix2 p q) * B (ix2 q d) := by
  simp only [matmul]
  rw [Ideal.matmul_constant_zero_apply, ← Equiv.sum_comp (contrEquiv1 dot_S2048x16_S16x1024_S2048x1024_1_0_0_1_n_n 16 rfl rfl).symm]
  refine Finset.sum_congr rfl fun k _ => ?_
  have hk := contrEquiv1_symm_val dot_S2048x16_S16x1024_S2048x1024_1_0_0_1_n_n 16 rfl rfl k
  have el : dot_S2048x16_S16x1024_S2048x1024_1_0_0_1_n_n.lhsIdx (ix2 p d) ((contrEquiv1 dot_S2048x16_S16x1024_S2048x1024_1_0_0_1_n_n 16 rfl rfl).symm k) = ix2 p k := funext fun a => Fin.ext (by
    match a with
    | ⟨0, _⟩ => exact lhs_second_0 _ _
    | ⟨1, _⟩ => exact (lhs_second_1 _ _).trans hk)
  have er : dot_S2048x16_S16x1024_S2048x1024_1_0_0_1_n_n.rhsIdx (ix2 p d) ((contrEquiv1 dot_S2048x16_S16x1024_S2048x1024_1_0_0_1_n_n 16 rfl rfl).symm k) = ix2 k d := funext fun a => Fin.ext (by
    match a with
    | ⟨0, _⟩ => exact (rhs_second_0 _ _).trans hk
    | ⟨1, _⟩ => exact rhs_second_1 _ _)
  rw [el, er]

/-! ## A vector viewed as a row and repeated down the block -/

/-- A vector of 16 entries as the row of a [1, 16] array, repeated down 2048 rows, reads its entry `q` at (p, q). -/
theorem row16_apply {α : Type} (v : S16.Idx → α) (p : Fin 2048) (q : Fin 16) :
    broadcastTo S2048x16 (shapeCast S1x16 v shapeCasts_S16_S1x16) broadcasts_S1x16_S2048x16 (ix2 p q) = v (ix1 q) := by
  rw [broadcastTo_apply _ broadcasts_S1x16_S2048x16 (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])]
  exact shapeCast_apply v shapeCasts_S16_S1x16 _ (ix1 q) (by
    rw [Shape.rowMajor_val_one, Shape.rowMajor_val_two]; show q.val = 0 * 16 + q.val; omega)

/-- A vector of 1024 entries as the row of a [1, 1024] array, repeated down 2048 rows, reads its entry `d` at (p, d). -/
theorem row1024_apply {α : Type} (v : S1024.Idx → α) (p : Fin 2048) (d : Fin 1024) :
    broadcastTo S2048x1024 (shapeCast S1x1024 v shapeCasts_S1024_S1x1024) broadcasts_S1x1024_S2048x1024 (ix2 p d) = v (ix1 d) := by
  rw [broadcastTo_apply _ broadcasts_S1x1024_S2048x1024 (ix2 p d) (ix2 (0 : Fin 1) d) (fun a => match a with
    | ⟨0, _⟩ => by show 0 = if (1 : Nat) = 1 then 0 else p.val; rw [if_pos rfl]
    | ⟨1, _⟩ => by show d.val = if (1024 : Nat) = 1 then 0 else d.val; rw [if_neg (by decide)])]
  exact shapeCast_apply v shapeCasts_S1024_S1x1024 _ (ix1 d) (by
    rw [Shape.rowMajor_val_one, Shape.rowMajor_val_two]; show d.val = 0 * 1024 + d.val; omega)

/-! ## The body's stored value at an entry -/

/-- The cosine of a vector at an index is the extended reals' cosine of the entry. -/
theorem cos_apply {s : Shape} {φ : FTy} (a : FVec Ideal s φ) (i : s.Idx) : cos a i = Ideal.cos (a i) := rfl

/-- Entry (p, d) of what the body stores is the layer's output `d` for row `p` of the input block. -/
theorem pay_apply (x0 : Vec Ideal S2048x1024 .f32) (w1 : Vec Ideal S1024x16 .f32) (bb1 th : Vec Ideal S16 .f32)
    (w2 : Vec Ideal S16x1024 .f32) (bb2 : Vec Ideal S1024 .f32) (p : Fin 2048) (d : Fin 1024) :
    k0_pay1 (F := Ideal) x0 w1 bb1 th w2 bb2 (ix2 p d) = outRow (fun k => x0 (ix2 p k)) w1 bb1 th w2 bb2 d := by
  unfold k0_pay1
  rw [addf_apply, second_apply, row1024_apply]
  unfold outRow
  refine congrArg (· + bb2 (ix1 d)) (Finset.sum_congr rfl fun q _ => ?_)
  rw [truncf_apply, truncf_apply]
  refine congrArg (· * w2 (ix2 q d)) ?_
  rw [cos_apply, addf_apply, maximumf_apply, addf_apply, first_apply, row16_apply, row16_apply, broadcast_apply]
  simp only [truncf_apply, shapeCast_self]
  rfl

end Cert.Ffn.Kernel

end
-- ==== Proof.Blocks.lean ====
/-
  From the blocks to the array. The grid has 16 points; point `t` takes rows `2048 t` to `2048 t + 2047` of the flattened
  input, all of each parameter array, and writes the same rows of the flattened output. Since the layer acts row by row,
  what point `t` writes is block `t` of ONE function of the arrays as the region finds them: the layer applied to the
  flattened input (`flatOut`). Every row `r` lies in the block of point `r / 2048`, so after the last point the output
  array is that function.
-/
import proofs.«137017_j65481071409583_1_alg».proof.Proof.Gen.KernelIdeal.Frame
import proofs.«137017_j65481071409583_1_alg».proof.Proof.Payload
import Idealize.ShloMosaic.Lib.Pipeline.Value

noncomputable section

open scoped BigOperators

namespace Cert.Ffn.Kernel

open Cert.KernelIdeal Cert.KernelIdeal.Gen Idealize.ShloMosaic Idealize.ShloMosaic.TcCoe Idealize.SL.Sem
open Idealize.ShloMosaic.ValueIdx Cert.Ffn
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a <;> rfl

/-- The flattened output as one function of the arrays the region finds: the layer on the flattened input. -/
abbrev flatOut (c : Dev nD) : S32768x1024.Idx → EReal :=
  ffn2 (V m c main_v0) (V m c main_arg1) (V m c main_arg2) (V m c main_arg3) (V m c main_arg4) (V m c main_arg5)

/-- One entry of a block against one entry of the array: if row `y 0` of the input block is row `i 0` of the flattened
    input, the parameter blocks are the parameter arrays, and the columns agree, then what the body stores at `y` is the
    layer on the flattened input at `i`. -/
theorem block_entry (x0 : Vec Ideal S2048x1024 .f32) (w1 : Vec Ideal S1024x16 .f32) (bb1 th : Vec Ideal S16 .f32)
    (w2 : Vec Ideal S16x1024 .f32) (bb2 : Vec Ideal S1024 .f32)
    (X : Vec Ideal S32768x1024 .f32) (W1 : Vec Ideal S1024x16 .f32) (B1 TH : Vec Ideal S16 .f32)
    (W2 : Vec Ideal S16x1024 .f32) (B2 : Vec Ideal S1024 .f32) (y : S2048x1024.Idx) (i : S32768x1024.Idx)
    (hx : ∀ k : Fin 1024, x0 (ix2 (y 0) k) = X (ix2 (i 0) k)) (hw1 : w1 = W1) (hb1 : bb1 = B1) (hth : th = TH)
    (hw2 : w2 = W2) (hb2 : bb2 = B2) (hd : y 1 = i 1) :
    k0_pay1 (F := Ideal) x0 w1 bb1 th w2 bb2 y = ffn2 X W1 B1 TH W2 B2 i := by
  subst hw1 hb1 hth hw2 hb2
  obtain ⟨p, d, rfl⟩ : ∃ (p : Fin 2048) (d : Fin 1024), y = ix2 p d := ⟨y 0, y 1, eq_ix2 y⟩
  have hd' : d = i 1 := hd
  rw [pay_apply]
  unfold ffn2
  rw [show (fun k => x0 (ix2 p k)) = fun k => X (ix2 (i 0) k) from funext hx, hd']

/-- The printed index maps over the 16 points: the input and output row blocks move together, block `t` at point `t`;
    every other block index is zero. -/
theorem idx_facts : ∀ t : Fin cfg0.N, win0_0.index t (0 : Fin 2) = win0_6.index t (0 : Fin 2)
    ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What point `t` writes back is block `t` of `flatOut`. -/
theorem flushed_eq (c : Dev nD) (t : Fin cfg0.N) :
    (dats m 0 c).flushed 6 t = ((cfg0.win 6).blk t).view.read (Elt Ideal) (flatOut m c) := by
  show (cfg0.win 6).cut (grid0.coords t) ((dats m 0 c).after 6 t) = _
  rw [after0_6]
  unfold out0_6
  rw [View.canon_unit_zero zero_off2]
  simp only [View.ld_unit_zero (S := S2048x1024) zero_off2, View.ld_unit_zero (S := S1024x16) zero_off2,
    View.ld_unit_zero (S := S16) zero_off1, View.ld_unit_zero (S := S16x1024) zero_off2,
    View.ld_unit_zero (S := S1024) zero_off1]
  obtain ⟨e0, e1, e2, e3, e4, e5, e6, e7, e8, e9, e10⟩ := idx_facts t
  funext j
  show k0_pay1 (F := Ideal) (iblk m c 0 t) (iblk m c 1 t) (iblk m c 2 t) (iblk m c 3 t) (iblk m c 4 t) (iblk m c 5 t) j
      = flatOut m c (((cfg0.win 6).blk t).view.emb j)
  refine block_entry (iblk m c 0 t) (iblk m c 1 t) (iblk m c 2 t) (iblk m c 3 t) (iblk m c 4 t) (iblk m c 5 t)
    (V m c main_v0) (V m c main_arg1) (V m c main_arg2) (V m c main_arg3) (V m c main_arg4) (V m c main_arg5)
    j (((cfg0.win 6).blk t).view.emb j) ?_ ?_ ?_ ?_ ?_ ?_ ?_
  · intro k
    show V m c main_v0 (((cfg0.win 0).blk t).view.emb (ix2 (j 0) k))
      = V m c main_v0 (ix2 ((((cfg0.win 6).blk t).view.emb j) 0) k)
    refine congrArg (V m c main_v0) (funext fun a => Fin.ext ?_)
    match a with
    | ⟨0, _⟩ => show win0_0.index t (0 : Fin 2) * 2048 + 1 * (j 0).val = win0_6.index t (0 : Fin 2) * 2048 + 1 * (j 0).val; rw [e0]
    | ⟨1, _⟩ => show win0_0.index t (1 : Fin 2) * 1024 + 1 * k.val = k.val; rw [e1]; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 1024 + 1 * (y 0).val = (y 0).val; rw [e2]; omega
    | ⟨1, _⟩ => show win0_1.index t (1 : Fin 2) * 16 + 1 * (y 1).val = (y 1).val; rw [e3]; omega
  · funext y
    show V m c main_arg2 (((cfg0.win 2).blk t).view.emb y) = V m c main_arg2 y
    refine congrArg (V m c main_arg2) (funext fun a => Fin.ext ?_)
    match a with
    | ⟨0, _⟩ => show win0_2.index t (0 : Fin 1) * 16 + 1 * (y 0).val = (y 0).val; rw [e4]; omega
  · funext y
    show V m c main_arg3 (((cfg0.win 3).blk t).view.emb y) = V m c main_arg3 y
    refine congrArg (V m c main_arg3) (funext fun a => Fin.ext ?_)
    match a with
    | ⟨0, _⟩ => show win0_3.index t (0 : Fin 1) * 16 + 1 * (y 0).val = (y 0).val; rw [e5]; omega
  · funext y
    show V m c main_arg4 (((cfg0.win 4).blk t).view.emb y) = V m c main_arg4 y
    refine congrArg (V m c main_arg4) (funext fun a => Fin.ext ?_)
    match a with
    | ⟨0, _⟩ => show win0_4.index t (0 : Fin 2) * 16 + 1 * (y 0).val = (y 0).val; rw [e6]; omega
    | ⟨1, _⟩ => show win0_4.index t (1 : Fin 2) * 1024 + 1 * (y 1).val = (y 1).val; rw [e7]; omega
  · funext y
    show V m c main_arg5 (((cfg0.win 5).blk t).view.emb y) = V m c main_arg5 y
    refine congrArg (V m c main_arg5) (funext fun a => Fin.ext ?_)
    match a with
    | ⟨0, _⟩ => show win0_5.index t (0 : Fin 1) * 1024 + 1 * (y 0).val = (y 0).val; rw [e8]; omega
  · refine Fin.ext ?_
    show (j 1).val = win0_6.index t (1 : Fin 2) * 1024 + 1 * (j 1).val
    rw [e10]; omega

/-- An index of the flattened output is in point `t`'s block iff each coordinate is in the block's range on its axis. -/
theorem mem_blk (t : Fin cfg0.N) (i : S32768x1024.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v1).slice (win0_6.rect t)).set ↔ _
  rw [View.set_slice_whole, Rect.mem_set_unit]
  exact Iff.rfl

/-- The 16 blocks cover the flattened output: row `r` is in the block of point `r / 2048`, every column in every block. -/
theorem cover (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 16 := N_0
  have ht : (i 0).val / 2048 < cfg0.N := by rw [hN]; omega
  obtain ⟨-, -, -, -, -, -, -, -, -, e9, e10⟩ := idx_facts ⟨(i 0).val / 2048, ht⟩
  have e9' : win0_6.index ⟨(i 0).val / 2048, ht⟩ (0 : Fin 2) = (i 0).val / 2048 := e9
  refine ⟨⟨(i 0).val / 2048, ht⟩, flush0_6 _, ?_⟩
  rw [mem_blk]
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    rw [e9']; omega
  | ⟨1, _⟩ =>
    show win0_6.index ⟨(i 0).val / 2048, ht⟩ (1 : Fin 2) * 1024 ≤ (i 1).val ∧ (i 1).val < win0_6.index ⟨(i 0).val / 2048, ht⟩ (1 : Fin 2) * 1024 + 1024
    rw [e10]; omega

/-- After the last point the flattened output is the layer on the flattened input. -/
theorem final (c : Dev nD) : (dats m 0 c).arrAt 6 cfg0.N = flatOut m c :=
  (dats m 0 c).arrAt_eq_of_cover 6 (flatOut m c) (fun t _ => flushed_eq m c t) cover

end Cert.Ffn.Kernel

end
-- ==== Proof.KernelRun.lean ====
/-
  The kernel program's run with its result named. Before the region the input [8, 4096, 1024] is flattened to
  [32768, 1024]; the region leaves the flattened output at the layer on the flattened input; after the region that array is
  unflattened to [8, 4096, 1024]. The layer commutes with the flattening, so the result is the layer on the input itself, and
  the six argument arrays end as they began.
-/
import proofs.«137017_j65481071409583_1_alg».proof.Proof.Blocks
import Idealize.ShloMosaic.Lib.StableHlo.Run

noncomputable section

namespace Cert.Ffn.Kernel

open Cert.KernelIdeal Cert.KernelIdeal.Gen Idealize.ShloMosaic Idealize.ShloMosaic.TcCoe Idealize.SL.Sem
open Idealize.ShloMosaic.ValueIdx Cert.Ffn
open Idealize.ShloMosaic.Pipeline (Dat)

variable (m : (ℓ : Loc nD τ sig) → Buf (Elt Ideal) ℓ) (ρ : Dev nD → PrngReg)

/-- The array the region's first window stages is the input, flattened. -/
theorem xflat_eq (c : Dev nD) :
    (V m c main_v0 : S32768x1024.Idx → EReal)
      = shapeCast S32768x1024 (m ((c : Thread nD τ).loc main_arg0)) shapeCasts_S8x4096x1024_S32768x1024 := by
  show StableHlo.after hostOps0 (fun b => m (c, b)) (Proc.devRef .tc main_v0) = _
  after_results
  rfl

/-- The program's result is the region's output array, unflattened. -/
theorem tail_eq (c : Dev nD) :
    (Pipeline.afterTail₀ cfgs (dats m) 0 (V0 m) [hostOps1] c main_v2 : S8x4096x1024.Idx → EReal)
      = shapeCast S8x4096x1024 ((dats m 0 c).arrAt 6 cfg0.N) shapeCasts_S32768x1024_S8x4096x1024 := by
  unfold Pipeline.afterTail₀
  show StableHlo.after hostOps1 _ (Proc.devRef .tc main_v2) = _
  after_results
  funext i
  exact congrFun (congrArg (fun z => shapeCast S8x4096x1024 z shapeCasts_S32768x1024_S8x4096x1024)
    (Pipeline.withArrays_arr spec0 launch0.win.arr_inj c (V0 m c) (fun w => (dats m 0 c).arrAt w cfg0.N) 6)) i

/-- The program's result is the layer on the input array. -/
theorem result_eq (c : Dev nD) :
    (Pipeline.afterTail₀ cfgs (dats m) 0 (V0 m) [hostOps1] c main_v2 : S8x4096x1024.Idx → EReal)
      = ffn3 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq, final]
  unfold flatOut
  rw [xflat_eq, V_main_arg1, V_main_arg2, V_main_arg3, V_main_arg4, V_main_arg5]
  exact ffn_flatten _ _ _ _ _ _ shapeCasts_S8x4096x1024_S32768x1024 shapeCasts_S32768x1024_S8x4096x1024

/-- Every weakly fair execution of the kernel program terminates with the result at the layer on the input and the six
    argument arrays unchanged. -/
theorem run : θ_run defs (onTc (τ := τ) (main (F := Ideal))) ⟨m, fun _ => 0, ρ⟩ fun r => ∀ c : Dev nD,
      r.2.mem ((c.tc : Thread nD τ).loc main_v2)
        = ffn3 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Ffn.Kernel

end
-- ==== Proof.lean ====
/-
  The kernel and its reference compute one function of their six argument arrays on the extended reals: a two-layer
  network applied to each of the 8 * 4096 rows of 1024 inputs,

      out (b, s, d) = (∑ q, cos (max (∑ k, x (b, s, k) * W1 (k, q) + b1 q) 0 + θ q) * W2 (q, d)) + b2 d.

  The reference writes it with two dot products over the [8, 4096, ·] arrays. The kernel flattens the two leading axes,
  runs 16 grid points of 2048 rows each — every point the same expression on its block of rows, the two products as block
  products into zero, the changes of float format the identity —, and unflattens the result. The two agree because the layer
  reads one row at a time, so it commutes with the flattening, and because a sum over a finite index type has no order.
  Nothing here needs a finite input. The idealization rewrote no operation, so `preserves` has nothing to state; the
  kernel's frames are the generated ones and the reference's frame is its generated run with the result dropped.
-/
import proofs.«137017_j65481071409583_1_alg».proof.Defs
import proofs.«137017_j65481071409583_1_alg».proof.Proof.Gen.Kernel
import proofs.«137017_j65481071409583_1_alg».proof.Proof.Gen.Kernel.Skeleton
import proofs.«137017_j65481071409583_1_alg».proof.Proof.Gen.Kernel.Launch
import proofs.«137017_j65481071409583_1_alg».proof.Proof.Gen.Kernel.Points
import proofs.«137017_j65481071409583_1_alg».proof.Proof.Gen.Kernel.Frame
import proofs.«137017_j65481071409583_1_alg».proof.Proof.Gen.KernelIdeal
import proofs.«137017_j65481071409583_1_alg».proof.Proof.Gen.KernelIdeal.Skeleton
import proofs.«137017_j65481071409583_1_alg».proof.Proof.Gen.KernelIdeal.Launch
import proofs.«137017_j65481071409583_1_alg».proof.Proof.Gen.KernelIdeal.Points
import proofs.«137017_j65481071409583_1_alg».proof.Proof.Gen.KernelIdeal.Frame
import proofs.«137017_j65481071409583_1_alg».proof.Proof.Gen.ReferenceIdeal
import proofs.«137017_j65481071409583_1_alg».proof.Proof.Gen.ReferenceIdeal.Run
import proofs.«137017_j65481071409583_1_alg».proof.Proof.Gen.ReferenceIdeal.Read
import proofs.«137017_j65481071409583_1_alg».proof.Proof.Gen.Pre_finite_inputs
import proofs.«137017_j65481071409583_1_alg».proof.Proof.RefSide
import proofs.«137017_j65481071409583_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the argument arrays as their result: the kernel by its run over the 16 blocks,
    the reference by its run read one operation at a time; the arguments agree, so the results do. -/
theorem algebraic : Cert.algebraic_KernelIdeal_ReferenceIdeal := by
  intro m ρ m' ρ' _ hagree
  refine ⟨_, Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Ffn.Ref.reference_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
